-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x4096x64 : Shape := ⟨4, ![8, 16, 4096, 64]⟩
abbrev S_ : Shape := ⟨0, ![]⟩

class Facts : Prop where
  bcast_S_S8x16x4096x64 : S_.BroadcastsInDim S8x16x4096x64 (![] : Fin 0 → Fin S8x16x4096x64.rank)
  reducesTo_S8x16x4096x64_S_d0_1_2_3 : S8x16x4096x64.ReducesTo [0, 1, 2, 3] S_
  h_S_ : 0 < S_.numel

variable [Facts]

def fn {F : FTy → Type} [FloatOps F] (main_arg0 : FVec F S8x16x4096x64 .f32) (main_arg1 : FVec F S8x16x4096x64 .f32) : IVec S_ 1 :=
  let main_v0 : FVec F S8x16x4096x64 .f32 := Host.absf main_arg0
  let main_cst : FVec F S_ .f32 := constant S_ .f32 0x7F800000#32
  let main_v1 : FVec F S8x16x4096x64 .f32 := broadcastInDim S8x16x4096x64 ![] bcast_S_S8x16x4096x64 main_cst
  let main_v2 : IVec S8x16x4096x64 1 := cmpf .olt main_v0 main_v1
  let main_c : IVec S_ 1 := constantI S_ 1 1#1
  let main_v3 : IVec S_ 1 := (fun x v => Host.reduce IntOp.andi x v reducesTo_S8x16x4096x64_S_d0_1_2_3 h_S_) main_v2 main_c
  let main_v4 : FVec F S8x16x4096x64 .f32 := Host.absf main_arg1
  let main_cst_0 : FVec F S_ .f32 := constant S_ .f32 0x7F800000#32
  let main_v5 : FVec F S8x16x4096x64 .f32 := broadcastInDim S8x16x4096x64 ![] bcast_S_S8x16x4096x64 main_cst_0
  let main_v6 : IVec S8x16x4096x64 1 := cmpf .olt main_v4 main_v5
  let main_c_1 : IVec S_ 1 := constantI S_ 1 1#1
  let main_v7 : IVec S_ 1 := (fun x v => Host.reduce IntOp.andi x v reducesTo_S8x16x4096x64_S_d0_1_2_3 h_S_) main_v6 main_c_1
  let main_v8 : IVec S_ 1 := andi main_v3 main_v7
  main_v8
-- ==== Kernel.lean ====
abbrev S8x16x4096x64 : Shape := ⟨4, ![8, 16, 4096, 64]⟩
abbrev S128x262144 : Shape := ⟨2, ![128, 262144]⟩
abbrev S128x8192 : Shape := ⟨2, ![128, 8192]⟩

abbrev nBuf : Space → Nat
  | .hbm => 6
  | .vmem => 6
  | .smem => 0
  | _ => 0

abbrev bufTy : (tb : Table) → Fin (tcTables nBuf tb) → BufTy
  | .hbm, ⟨0, _⟩ => ⟨S8x16x4096x64, .f32⟩
  | .hbm, ⟨1, _⟩ => ⟨S8x16x4096x64, .f32⟩
  | .hbm, ⟨2, _⟩ => ⟨S128x262144, .f32⟩
  | .hbm, ⟨3, _⟩ => ⟨S128x262144, .f32⟩
  | .hbm, ⟨4, _⟩ => ⟨S128x262144, .f32⟩
  | .hbm, ⟨5, _⟩ => ⟨S8x16x4096x64, .f32⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | .local _ .vmem, ⟨4, _⟩ => ⟨S128x8192, .f32⟩
  | .local _ .vmem, ⟨5, _⟩ => ⟨S128x8192, .f32⟩
  | _, _ => ⟨S8x16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8x16x4096x64_S128x262144 : S8x16x4096x64.ShapeCasts S128x262144
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  shapeCasts_S128x262144_S8x16x4096x64 : S128x262144.ShapeCasts S8x16x4096x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S128x262144.size a
  hwx0_0 : ∀ i : grid0.Coords, EltTy.bits .f32 = 32 ∨ (Rect.block (s := S128x262144) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S128x262144.size a
  hwx0_1 : ∀ i : grid0.Coords, EltTy.bits .f32 = 32 ∨ (Rect.block (s := S128x262144) S128x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x8192.size a ≤ S128x262144.size a
  hwx0_2 : ∀ i : grid0.Coords, EltTy.bits .f32 = 32 ∨ (Rect.block (s := S128x262144) S128x8192.size (cc0_transform_2 i) (hinb0_2 i)).WholeWords (EltTy.packing .f32)

variable [Facts₀]

abbrev win0_0 : Pipeline.Window sig grid0 :=
  Pipeline.Window.ofSpec (Memref.whole main_v0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x16x4096x64 : Shape := ⟨4, ![8, 16, 4096, 64]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8x16x4096x64, .f32⟩
  | .hbm, ⟨1, _⟩ => ⟨S8x16x4096x64, .f32⟩
  | .hbm, ⟨2, _⟩ => ⟨S8x16x4096x64, .f32⟩
  | .hbm, ⟨3, _⟩ => ⟨S_, .f32⟩
  | .hbm, ⟨4, _⟩ => ⟨S8x16x4096x64, .f32⟩
  | .hbm, ⟨5, _⟩ => ⟨S8x16x4096x64, .f32⟩
  | .hbm, ⟨6, _⟩ => ⟨S8x16x4096x64, .f32⟩
  | .hbm, ⟨7, _⟩ => ⟨S8x16x4096x64, .f32⟩
  | .hbm, ⟨8, _⟩ => ⟨S_, .f32⟩
  | .hbm, ⟨9, _⟩ => ⟨S8x16x4096x64, .f32⟩
  | .hbm, ⟨10, _⟩ => ⟨S8x16x4096x64, .f32⟩
  | .hbm, ⟨11, _⟩ => ⟨S8x16x4096x64, .f32⟩
  | .hbm, ⟨12, _⟩ => ⟨S_, .f32⟩
  | .hbm, ⟨13, _⟩ => ⟨S8x16x4096x64, .f32⟩
  | .hbm, ⟨14, _⟩ => ⟨S8x16x4096x64, .f32⟩
  | .hbm, ⟨15, _⟩ => ⟨S_, .f32⟩
  | .hbm, ⟨16, _⟩ => ⟨S8x16x4096x64, .f32⟩
  | .hbm, ⟨17, _⟩ => ⟨S8x16x4096x64, .f32⟩
  | _, _ => ⟨S8x16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  bcast_S_S8x16x4096x64 : S_.BroadcastsInDim S8x16x4096x64 (![] : Fin 0 → Fin S8x16x4096x64.rank)

variable [Facts₀]

class Facts : Prop extends Facts₀ where

variable [Facts]
-- ==== Proof.Score.lean ====
/-
  The function both programs compute, one entry at a time. For an entry `a` of `x` and the entry `b` of `y` at the
  same position, the result's entry there is

      1 − log(√((n·(a − b))·(a − b)) + 1) · κ,

  where `n = 2^20` (the single-precision word 0x49800000) and `κ` is the single-precision word 0x3EDE5BD9, the float
  nearest 1 / ln 10: BOTH programs spell the base-10 logarithm as the natural logarithm times this one literal, so the
  literal is never evaluated. The products are grouped `(n·d)·d` on both sides, the constant `1` is the same word on
  both sides, and the subtraction, the sum and the products are the same operations in the same order. Hence no law of
  the extended reals' arithmetic is needed, and no finiteness: the two results are the same expression of the same two
  entries. The one difference in spelling is that the reference takes its square root and its logarithm through the
  host's one-operand operations; on the extended reals those denote the same two functions as the kernel's.
-/
import Idealize.ShloMosaic.PureOps
import Idealize.ShloMosaic.PureOps.Ideal

noncomputable section

namespace Cert.Score

open Idealize.ShloMosaic

variable {F : FTy → Type} [FloatOps F]

/-- The result's entry from the two inputs' entries, with the kernel's square root and logarithm. -/
def entry (a b : F .f32) : F .f32 :=
  FloatOps.subf (FloatOps.ofBits .f32 0x3F800000#32)
    (FloatOps.mulf
      (FloatOps.log
        (FloatOps.addf
          (FloatOps.sqrt
            (FloatOps.mulf (FloatOps.mulf (FloatOps.ofBits .f32 0x49800000#32) (FloatOps.subf a b)) (FloatOps.subf a b)))
          (FloatOps.ofBits .f32 0x3F800000#32)))
      (FloatOps.ofBits .f32 0x3EDE5BD9#32))

/-- The same entry with the host's square root and logarithm, as the reference spells it. -/
def entryHost (a b : F .f32) : F .f32 :=
  FloatOps.subf (FloatOps.ofBits .f32 0x3F800000#32)
    (FloatOps.mulf
      (FloatOps.hostUnary .log
        (FloatOps.addf
          (FloatOps.hostUnary .sqrt
            (FloatOps.mulf (FloatOps.mulf (FloatOps.ofBits .f32 0x49800000#32) (FloatOps.subf a b)) (FloatOps.subf a b)))
          (FloatOps.ofBits .f32 0x3F800000#32)))
      (FloatOps.ofBits .f32 0x3EDE5BD9#32))

/-- On the extended reals the host's square root and logarithm ARE the kernel's (each pair is one function there), so
    the two spellings of an entry agree. -/
theorem entryHost_eq (a b : Ideal .f32) : entryHost (F := Ideal) a b = entry (F := Ideal) a b := rfl

/-- The whole result over any index set: entry by entry. -/
def map {ι : Type} (x y : ι → F .f32) : ι → F .f32 := fun i => entry (x i) (y i)

theorem map_apply {ι : Type} (x y : ι → F .f32) (i : ι) : map x y i = entry (x i) (y i) := rfl

/-- Viewing an array under another shape (same entries in row-major order) commutes with an entry-by-entry map: the entry
    at a position of the new shape is computed from the inputs' entries at the corresponding position of the old one. -/
theorem shapeCast_map {s t : Shape} (h : s.ShapeCasts t) (x y : s.Idx → F .f32) :
    shapeCast t (map x y) h = map (shapeCast t x h) (shapeCast t y h) := rfl

end Cert.Score

end
-- ==== Proof.RefScore.lean ====
/-
  The reference's result, read one operation at a time, is the entry-by-entry function of `Score.lean`: the difference
  of the two inputs, `n` times it, times it again, the square root, plus one, the logarithm, times `κ`, subtracted
  from one — each a pointwise operation or a broadcast of a scalar constant, so the result's entry at a position
  depends only on the inputs' entries at that position.
-/
import proofs.«171279_j88210038326190_1_alg».proof.Proof.Gen.ReferenceIdeal.Read
import proofs.«171279_j88210038326190_1_alg».proof.Proof.Score

noncomputable section

namespace Cert.ReferenceIdeal.RefScore

open Cert.ReferenceIdeal Cert.ReferenceIdeal.Gen Cert.ReferenceIdeal.Read Idealize.ShloMosaic Idealize.ShloMosaic.TcCoe
open Idealize.SL.Sem Idealize.ShloMosaic.StableHlo

variable {F : FTy → Type} [FloatOps F]

/-- The last stage of the reference at a position is the entry function (host spelling) of the inputs' entries there. -/
theorem result_apply (x0 x1 : (⟨S8x16x4096x64, .f32⟩ : BufTy).Contents (Elt F)) (i : S8x16x4096x64.Idx) :
    val_main_v11 (F := F) x0 x1 i = Cert.Score.entryHost (x0 i) (x1 i) := by
  rw [val_main_v11_apply, val_main_v10_apply, val_main_cst_2_apply, val_main_v9_apply, val_main_v8_apply,
    val_main_cst_1_apply, val_main_v7_apply, val_main_v6_apply, val_main_v5_apply, val_main_cst_0_apply,
    val_main_v4_apply, val_main_v3_apply, val_main_v2_apply, val_main_v1_apply, val_main_cst_apply, val_main_v0_apply]
  rfl

/-- On the extended reals the reference's result is the entry-by-entry map of its two arguments. -/
theorem result_eq (x0 x1 : (⟨S8x16x4096x64, .f32⟩ : BufTy).Contents (Elt Ideal)) :
    val_main_v11 (F := Ideal) x0 x1 = Cert.Score.map (F := Ideal) x0 x1 :=
  funext fun i => (result_apply x0 x1 i).trans (Cert.Score.entryHost_eq _ _)

end Cert.ReferenceIdeal.RefScore

end
-- ==== Proof.KernelBlocks.lean ====
/-
  The kernel's region, read as values. The two inputs reach the region viewed as 128 × 262144 arrays `X` and `Y`; the
  grid has 32 points, and at point `t` every window (both inputs and the output) is the block of all 128 rows and the
  8192 columns `8192·t … 8192·t + 8191`. The body loads the two blocks whole, applies the entry function of `Score.lean`
  entry by entry, and stores the block whole. So what point `t` writes back is block `t` of the ONE array
  `fun i => entry (X i) (Y i)`, and since column `j` lies in the block of point `j / 8192`, the 32 blocks cover the output
  array: after the region it IS that array.
-/
import proofs.«171279_j88210038326190_1_alg».proof.Proof.Gen.KernelIdeal.Frame
import proofs.«171279_j88210038326190_1_alg».proof.Proof.Score
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The offset of every access of the body: the block's origin. -/
theorem origin : (![0, 0] : Fin 2 → Nat) = fun _ => 0 := funext fun a => by fin_cases a <;> rfl

/-- The region's result as one function of the two 128 × 262144 arrays it reads: entry by entry. -/
abbrev wide (a0 a1 : S128x262144.Idx → Elt F .f32) : S128x262144.Idx → Elt F .f32 := Cert.Score.map a0 a1

/-- The body's stored value is the entry-by-entry map of its two loaded blocks (its two shape casts are to the same
    shape, hence the identity). -/
theorem payload_eq (x0 x1 : Vec F S128x8192 .f32) : k0_pay1 x0 x1 = Cert.Score.map x0 x1 := by
  have e : k0_pay1 x0 x1 = Cert.Score.map (shapeCast S128x8192 x0 Facts₀.shapeCasts_S128x8192_S128x8192)
      (shapeCast S128x8192 x1 Facts₀.shapeCasts_S128x8192_S128x8192) := rfl
  rw [e, shapeCast_self, shapeCast_self]

/-- The three index maps, decided over the 32 points: all three windows sit on the same block, row block 0 and column
    block `t`. -/
theorem idx_facts : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) = 0
    ∧ win0_2.index t (1 : Fin 2) ≤ 31 :=
  (by decide +kernel : ∀ t : Fin grid0.N, _)

/-- Every column block is some point's. -/
theorem idx_onto : ∀ q : Fin 32, ∃ t : Fin cfg0.N, win0_2.index t = ![0, q.val] :=
  (by decide +kernel : ∀ q : Fin 32, ∃ t : Fin grid0.N, win0_2.index t = ![0, q.val])

/-- WHAT POINT `t` WRITES BACK is block `t` of the entry-by-entry map of the two arrays the region reads. -/
theorem flushed_eq (c : Dev nD) (t : Fin cfg0.N) :
    (dats m 0 c).flushed 2 t = ((cfg0.win 2).blk t).view.read (Elt F) (wide (V m c main_v0) (V m c main_v1)) := by
  show (cfg0.win 2).cut (grid0.coords t) ((dats m 0 c).after 2 t) = _
  rw [after0_2]
  unfold out0_2
  rw [View.canon_unit_zero origin]
  simp only [View.ld_unit_zero (S := S128x8192) origin]
  rw [payload_eq]
  obtain ⟨e0, e1, e2, e3, e4, e5⟩ := idx_facts t
  funext j
  show Cert.Score.entry (V m c main_v0 (((cfg0.win 0).blk t).view.emb j)) (V m c main_v1 (((cfg0.win 1).blk t).view.emb j))
    = Cert.Score.entry (V m c main_v0 (((cfg0.win 2).blk t).view.emb j)) (V m c main_v1 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 128 + 1 * (j 0).val = win0_2.index t (0 : Fin 2) * 128 + 1 * (j 0).val; omega
    | ⟨1, _⟩ => show win0_0.index t (1 : Fin 2) * 8192 + 1 * (j 1).val = win0_2.index t (1 : Fin 2) * 8192 + 1 * (j 1).val; omega
  have h1 : ((cfg0.win 1).blk t).view.emb j = ((cfg0.win 2).blk t).view.emb j := by
    funext a; apply Fin.ext
    match a with
    | ⟨0, _⟩ => show win0_1.index t (0 : Fin 2) * 128 + 1 * (j 0).val = win0_2.index t (0 : Fin 2) * 128 + 1 * (j 0).val; omega
    | ⟨1, _⟩ => show win0_1.index t (1 : Fin 2) * 8192 + 1 * (j 1).val = win0_2.index t (1 : Fin 2) * 8192 + 1 * (j 1).val; omega
  rw [h0, h1]

/-- An index of the output array is in point `t`'s block iff each coordinate is in the block's range on its axis. -/
theorem mem_blk (t : Fin cfg0.N) (i : S128x262144.Idx) :
    i ∈ ((cfg0.win 2).blk t).view.set ↔ ∀ a : Fin 2, win0_2.index t a * S128x8192.size a ≤ (i a).val ∧ (i a).val < win0_2.index t a * S128x8192.size a + S128x8192.size a := by
  show i ∈ ((View.whole main_v2).slice (win0_2.rect t)).set ↔ _
  rw [View.set_slice_whole, Rect.mem_set_unit]
  exact Iff.rfl

/-- THE COVER: column `j` is in the block of the point whose column block is `j / 8192`; every row is in every block. -/
theorem cover (i : S128x262144.Idx) :
    ∃ t : Fin cfg0.N, (cfg0.win 2).flush t = true ∧ i ∈ ((cfg0.win 2).blk t).view.set := by
  have hi0 : (i 0).val < 128 := (i 0).isLt
  have hi1 : (i 1).val < 262144 := (i 1).isLt
  obtain ⟨t, ht⟩ := idx_onto ⟨(i 1).val / 8192, by omega⟩
  have q0 : win0_2.index t (0 : Fin 2) = 0 := congrFun ht 0
  have q1 : win0_2.index t (1 : Fin 2) = (i 1).val / 8192 := congrFun ht 1
  refine ⟨t, flush0_2 t, ?_⟩
  rw [mem_blk]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 8192 ≤ (i 1).val ∧ (i 1).val < win0_2.index t (1 : Fin 2) * 8192 + 8192; omega

/-- THE OUTPUT ARRAY after the region: the entry-by-entry map of the two arrays the region reads. -/
theorem final (c : Dev nD) : (dats m 0 c).arrAt 2 cfg0.N = wide (V m c main_v0) (V m c main_v1) :=
  (dats m 0 c).arrAt_eq_of_cover 2 _ (fun t _ => flushed_eq m c t) cover

end Cert.KernelIdeal.Blocks

end
-- ==== Proof.KernelValue.lean ====
/-
  The kernel's whole program, read as values. Before the region each input, an 8 × 16 × 4096 × 64 array, is viewed as
  128 × 262144 (the same entries in row-major order); the region leaves the entry-by-entry map of the two views
  (`KernelBlocks.lean`); after it the result is viewed back as 8 × 16 × 4096 × 64. An entry-by-entry map commutes with such
  a change of view, and viewing there and back is the identity, so the program's result is the entry-by-entry map of the
  two inputs themselves.
-/
import proofs.«171279_j88210038326190_1_alg».proof.Proof.KernelBlocks
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.StableHlo
open Idealize.ShloMosaic.Pipeline (Dat)

variable {F : FTy → Type} [FloatOps F]
variable (m : (ℓ : Loc nD τ sig) → Buf (Elt F) ℓ) (ρ : Dev nD → PrngReg)

/-- The first input as the region finds it: the first argument viewed as 128 × 262144. -/
theorem V_main_v0 (c : Dev nD) :
    (V m c main_v0 : S128x262144.Idx → Elt F .f32)
      = shapeCast S128x262144 (m ((c : Thread nD τ).loc main_arg0)) Facts₀.shapeCasts_S8x16x4096x64_S128x262144 := by
  show StableHlo.after hostOps0 (fun b => m (c, b)) (Proc.devRef .tc main_v0) = _
  after_results
  rfl

/-- The second input as the region finds it: the second argument viewed as 128 × 262144. -/
theorem V_main_v1 (c : Dev nD) :
    (V m c main_v1 : S128x262144.Idx → Elt F .f32)
      = shapeCast S128x262144 (m ((c : Thread nD τ).loc main_arg1)) Facts₀.shapeCasts_S8x16x4096x64_S128x262144 := by
  show StableHlo.after hostOps0 (fun b => m (c, b)) (Proc.devRef .tc main_v1) = _
  after_results
  rfl

/-- The program's result buffer after the line that follows the region: the region's output array viewed back as
    8 × 16 × 4096 × 64. -/
theorem tail_eq (c : Dev nD) :
    (Pipeline.afterTail₀ cfgs (dats m) 0 (V0 m) [hostOps1] c main_v3 : S8x16x4096x64.Idx → Elt F .f32)
      = shapeCast S8x16x4096x64 ((dats m 0 c).arrAt 2 cfg0.N) Facts₀.shapeCasts_S128x262144_S8x16x4096x64 := by
  unfold Pipeline.afterTail₀
  show StableHlo.after hostOps1 _ (Proc.devRef .tc main_v3) = _
  after_results
  exact congrArg (fun a => shapeCast S8x16x4096x64 a Facts₀.shapeCasts_S128x262144_S8x16x4096x64)
    (Pipeline.withArrays_arr spec0 launch0.win.arr_inj c _ _ 2)

/-- THE RESULT: the entry-by-entry map of the two arguments. -/
theorem result_eq (c : Dev nD) :
    (Pipeline.afterTail₀ cfgs (dats m) 0 (V0 m) [hostOps1] c main_v3 : S8x16x4096x64.Idx → Elt F .f32)
      = Cert.Score.map (m ((c : Thread nD τ).loc main_arg0)) (m ((c : Thread nD τ).loc main_arg1)) := by
  rw [tail_eq, Blocks.final, V_main_v0, V_main_v1]
  show shapeCast S8x16x4096x64 (Cert.Score.map _ _) _ = _
  rw [Cert.Score.shapeCast_map]
  exact congrArg₂ Cert.Score.map (shapeCast_shapeCast _ _ _) (shapeCast_shapeCast _ _ _)

/-- The kernel's run with its result NAMED: every weakly fair execution terminates, the result buffer holds the
    entry-by-entry map of the two arguments, and the arguments are unchanged. -/
theorem run : θ_run defs (onTc (τ := τ) (main (F := F))) ⟨m, fun _ => 0, ρ⟩ fun r => ∀ c : Dev nD,
      r.2.mem ((c.tc : Thread nD τ).loc main_v3) = Cert.Score.map (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Whole

end
-- ==== Proof.lean ====
/-
  The kernel computes, entry by entry over two 8 × 16 × 4096 × 64 arrays `x` and `y`,

      1 − log(√((n·(x − y))·(x − y)) + 1) · κ        (n = 2^20, κ the single-precision float nearest 1 / ln 10),

  on lane-dense blocks: it views both inputs as 128 × 262144, walks 32 column blocks of width 8192, and views the result
  back. The reference applies the same operations to the four-axis arrays directly, with the same two literals and the
  same grouping of the products. On the extended reals the two results are the same expression of the same entries:
  the change of view and the tiling move entries without touching them (`Proof/KernelBlocks.lean`,
  `Proof/KernelValue.lean`), the reference's stages compose to the entry function (`Proof/RefScore.lean`), and the host's
  square root and logarithm are the kernel's there (`Proof/Score.lean`). No arithmetic law and no finiteness is used, so
  the precondition is never opened. The idealized kernel is the kernel's own text read on the extended reals (no rewrite
  was applied), so there is nothing to preserve; the three programs' runs terminate without fault and leave their
  arguments unchanged.
-/
import proofs.«171279_j88210038326190_1_alg».proof.Defs
import proofs.«171279_j88210038326190_1_alg».proof.Proof.Gen.Kernel
import proofs.«171279_j88210038326190_1_alg».proof.Proof.Gen.Kernel.Skeleton
import proofs.«171279_j88210038326190_1_alg».proof.Proof.Gen.Kernel.Launch
import proofs.«171279_j88210038326190_1_alg».proof.Proof.Gen.Kernel.Points
import proofs.«171279_j88210038326190_1_alg».proof.Proof.Gen.Kernel.Frame
import proofs.«171279_j88210038326190_1_alg».proof.Proof.Gen.KernelIdeal
import proofs.«171279_j88210038326190_1_alg».proof.Proof.Gen.KernelIdeal.Skeleton
import proofs.«171279_j88210038326190_1_alg».proof.Proof.Gen.KernelIdeal.Launch
import proofs.«171279_j88210038326190_1_alg».proof.Proof.Gen.KernelIdeal.Points
import proofs.«171279_j88210038326190_1_alg».proof.Proof.Gen.KernelIdeal.Frame
import proofs.«171279_j88210038326190_1_alg».proof.Proof.Gen.ReferenceIdeal
import proofs.«171279_j88210038326190_1_alg».proof.Proof.Gen.Pre_finite_inputs
import proofs.«171279_j88210038326190_1_alg».proof.Proof.Gen.ReferenceIdeal.Run
import proofs.«171279_j88210038326190_1_alg».proof.Proof.Gen.ReferenceIdeal.Read
import proofs.«171279_j88210038326190_1_alg».proof.Proof.Score
import proofs.«171279_j88210038326190_1_alg».proof.Proof.RefScore
import proofs.«171279_j88210038326190_1_alg».proof.Proof.KernelBlocks
import proofs.«171279_j88210038326190_1_alg».proof.Proof.KernelValue
import Idealize.ShloMosaic.Adequacy
import Idealize.ShloMosaic.Init

noncomputable section

namespace Cert.Proof

open Idealize.ShloMosaic Idealize.SL.Sem

/-- The kernel as printed runs and keeps its arguments. -/
theorem frame_k : Cert.frame_Kernel := fun m ρ _ => Cert.Kernel.Gen.frame m ρ

/-- The kernel read on the extended reals runs and keeps its arguments. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten for the reading on the extended reals. -/
theorem preserves : Cert.preserves_Kernel_KernelIdeal := trivial

/-- From memories agreeing on the two arguments, both programs end with the entry-by-entry map of the arguments. -/
theorem algebraic : Cert.algebraic_KernelIdeal_ReferenceIdeal := by
  intro m ρ m' ρ' _ hagree
  refine ⟨_, Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefScore.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
